-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000, .f32⟩
  | .hbm, ⟨90, _⟩ => ⟨S100000x1, .f32⟩
  | .hbm, ⟨91, _⟩ => ⟨S100000x1, .f32⟩
  | .hbm, ⟨92, _⟩ => ⟨S_, .f32⟩
  | .hbm, ⟨93, _⟩ => ⟨S100000x1, .f32⟩
  | .hbm, ⟨94, _⟩ => ⟨S100000x1, .f32⟩
  | .hbm, ⟨95, _⟩ => ⟨S100000x128, .f32⟩
  | .hbm, ⟨96, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_call2_v2 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageRow.lean ====
/-
  One SAGE layer, as mathematics over the extended reals.

  A node's output row depends on two rows of features only: its aggregated-neighbour row `a` and its own row `x`.
  With weight matrices `Wl`, `Wr` (128 × 128) and a bias row `b`, the affine part at column `j` is
      lin j = (∑ₖ a k · Wl k j) + (∑ₖ x k · Wr k j) + b j,
  its Euclidean norm is clamped below by the small positive constant `eps`, and the output is `lin j / max(‖lin‖, eps)`,
  followed in the first layer by the positive part. A layer over an array of `n` nodes applies this row by row, so
  the same definition serves a block of rows and the whole array: row `r` of a block that starts at row `o` is row
  `o + r` of the array.

  The other grouping of the affine part, `((∑ a·Wl) + b) + (∑ x·Wr)`, is the same number: addition of extended reals
  is commutative and associative (no cancellation is used, so infinities do no harm).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A matrix of extended reals with `r` rows and `c` columns, indexed as the arrays of the programs are. -/
abbrev Mat (r c : Nat) : Type := (⟨2, ![r, c]⟩ : Shape).Idx → EReal

/-- The clamp under the norm: the single-precision word nearest to 10⁻¹², read exactly. -/
def eps : EReal := Ideal.ofBits .f32 0x2B8CBCCC#32

/-- The affine part of a node's row at column `j`: neighbours through `Wl`, the node itself through `Wr`, then the bias. -/
def lin (a x : Fin 128 → EReal) (Wl Wr : Mat 128 128) (b : Fin 128 → EReal) (j : Fin 128) : EReal :=
  (∑ k : Fin 128, a k * Wl (ix2 k j)) + (∑ k : Fin 128, x k * Wr (ix2 k j)) + b j

/-- The same with the bias added before the node's own term. -/
theorem lin_bias_first (a x : Fin 128 → EReal) (Wl Wr : Mat 128 128) (b : Fin 128 → EReal) (j : Fin 128) :
    (∑ k : Fin 128, a k * Wl (ix2 k j)) + b j + (∑ k : Fin 128, x k * Wr (ix2 k j)) = lin a x Wl Wr b j :=
  add_right_comm _ _ _

/-- The clamped Euclidean norm of the affine row. -/
def nrm (a x : Fin 128 → EReal) (Wl Wr : Mat 128 128) (b : Fin 128 → EReal) : EReal :=
  max (Ideal.sqrt (∑ j : Fin 128, lin a x Wl Wr b j * lin a x Wl Wr b j)) eps

/-- A node's output row at column `j`: the affine row over its clamped norm, and its positive part when `pos`. -/
def outRow (pos : Bool) (a x : Fin 128 → EReal) (Wl Wr : Mat 128 128) (b : Fin 128 → EReal) (j : Fin 128) : EReal :=
  if pos then max (Ideal.div (lin a x Wl Wr b j) (nrm a x Wl Wr b)) 0
  else Ideal.div (lin a x Wl Wr b j) (nrm a x Wl Wr b)

/-- Row `i` of a matrix with 128 columns. -/
def rowOf {n : Nat} (A : Mat n 128) (i : Fin n) : Fin 128 → EReal := fun k => A (ix2 i k)

/-- The layer over `n` nodes: node `i`'s output row from row `i` of the aggregated features `A` and of the features `X`. -/
def layer (pos : Bool) {n : Nat} (A X : Mat n 128) (Wl Wr : Mat 128 128) (b : Fin 128 → EReal) : Mat n 128 :=
  fun idx => outRow pos (rowOf A ⟨(idx 0).val, (idx 0).isLt⟩) (rowOf X ⟨(idx 0).val, (idx 0).isLt⟩) Wl Wr b
    ⟨(idx 1).val, (idx 1).isLt⟩

theorem layer_apply (pos : Bool) {n : Nat} (A X : Mat n 128) (Wl Wr : Mat 128 128) (b : Fin 128 → EReal)
    (i : Fin n) (j : Fin 128) :
    layer pos A X Wl Wr b (ix2 i j) = outRow pos (rowOf A i) (rowOf X i) Wl Wr b j := rfl

end Cert.Sage

end
-- ==== Proof.LibColumn.lean ====
/-
  Two layout facts about a column kept after a row reduction:
  a vector of `a` numbers seen as an `a × 1` column reads, at `(i, 0)`, the vector at `i`; and an `a × 1` column
  repeated across `b` columns reads, at `(p, c)`, the column's entry in row `p`.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LayerBody.lean ====
/-
  The kernel body of either layer, read at one entry of the block it stores.

  The body takes a block of 4000 rows of aggregated features and of node features, the two weight matrices and the bias
  row, and stores one block of 4000 output rows. Rounding the operands to a narrower format before the products is the
  identity on extended reals, and a product accumulated from zero is the plain sum over the shared coordinate; so the
  stored entry in row `p`, column `q` is the layer's row function (`Cert.Sage.outRow`) of rows `p` of the two
  blocks — with the positive part in the first layer's body and without it in the second's.
-/
import proofs.«139372_j45655502356568_1_alg».proof.Proof.Gen.KernelIdeal.Skeleton
import proofs.«139372_j45655502356568_1_alg».proof.Proof.SageRow
import proofs.«139372_j45655502356568_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Sage Cert.LibColumn

/-! ## The block product's operand indices, axis by axis -/

theorem lhs_ax0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_ax1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_ax0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_ax1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block's product with a weight matrix, started from zero, at row `p` and column `q`: the sum over the 128 shared
    coordinates of the row's entry times the column's. -/
theorem matmul_zero_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The sum of a block's row `p` over its 128 columns. -/
theorem rowSum_apply (v : FVec Ideal S4000x128 .f32) (hφ : FKind.Formats .f32) (hacc : (0x00000000#32 : BitVec 32) = FKind.add.neutral .f32 hφ) (p : Fin 4000) :
    multiReduction .add [1] S4000 v 0x00000000#32 reduces_S4000x128_S4000 hφ hacc (ix1 p) = ∑ k : Fin 128, v (ix2 p k) := by
  refine (Ideal.multiReduction_add_single v 0x00000000#32 reduces_S4000x128_S4000 hφ hacc (ix1 p)).trans ?_
  refine Finset.sum_congr rfl fun k _ => ?_
  exact congrArg v (funext fun a => Fin.ext (by match a with | ⟨0, _⟩ => rfl | ⟨1, _⟩ => rfl))

/-- The lane sum as the body prints it. -/
theorem rowSum_printed (v : FVec Ideal S4000x128 .f32) (p : Fin 4000) :
    multiReduction .add [1] S4000 v 0x00000000#32 reduces_S4000x128_S4000 (.inl rfl) rfl (ix1 p) = ∑ k : Fin 128, v (ix2 p k) :=
  rowSum_apply v _ _ p

/-! ## The affine part on a block -/

/-- The affine part of the layer on a block: the two products and the bias row repeated down the rows. -/
def affine (x0 x1 : Vec Ideal S4000x128 .f32) (x2 x3 : Vec Ideal S128x128 .f32) (x4 : Vec Ideal S1x128 .f32) : FVec Ideal S4000x128 .f32 :=
  addf (addf (matmul dot_S4000x128_S128x128_S4000x128_1_0_0_1_n_n none (truncf .bf16 x0 bitsLt_bf16_f32) (truncf .bf16 x2 bitsLt_bf16_f32) (constant S4000x128 .f32 0x00000000#32))
    (matmul dot_S4000x128_S128x128_S4000x128_1_0_0_1_n_n none (truncf .bf16 x1 bitsLt_bf16_f32) (truncf .bf16 x3 bitsLt_bf16_f32) (constant S4000x128 .f32 0x00000000#32)))
    (broadcastTo S4000x128 x4 broadcasts_S1x128_S4000x128)

/-- At row `p`, column `q` it is `Cert.Sage.lin` of rows `p` of the two feature blocks. -/
theorem affine_apply (x0 x1 : Vec Ideal S4000x128 .f32) (x2 x3 : Vec Ideal S128x128 .f32) (x4 : Vec Ideal S1x128 .f32) (p : Fin 4000) (q : Fin 128) :
    affine x0 x1 x2 x3 x4 (ix2 p q) = lin (rowOf x0 p) (rowOf x1 p) x2 x3 (fun j => x4 (ix2 (0 : Fin 1) j)) q := by
  unfold affine lin rowOf
  rw [addf_apply, addf_apply, matmul_zero_apply, matmul_zero_apply, broadcastTo_1b_ab_apply]
  rfl

/-- The affine block over its rows' clamped norms, at row `p`, column `q`. -/
theorem normalized_apply (x0 x1 : Vec Ideal S4000x128 .f32) (x2 x3 : Vec Ideal S128x128 .f32) (x4 : Vec Ideal S1x128 .f32) (p : Fin 4000) (q : Fin 128) :
    divf (affine x0 x1 x2 x3 x4) (broadcastTo S4000x128 (maximumf (sqrt (shapeCast S4000x1 (multiReduction .add [1] S4000 (mulf (affine x0 x1 x2 x3 x4) (affine x0 x1 x2 x3 x4)) 0x00000000#32 reduces_S4000x128_S4000 (.inl rfl) rfl) shapeCasts_S4000_S4000x1)) (broadcast S4000x1 (Scalar.ofBits .f32 0x2B8CBCCC#32))) broadcasts_S4000x1_S4000x128) (ix2 p q)
      = Ideal.div (lin (rowOf x0 p) (rowOf x1 p) x2 x3 (fun j => x4 (ix2 (0 : Fin 1) j)) q) (nrm (rowOf x0 p) (rowOf x1 p) x2 x3 (fun j => x4 (ix2 (0 : Fin 1) j))) := by
  rw [divf_apply, broadcastTo_a1_ab_apply, maximumf_apply]
  show Ideal.div _ (max (Ideal.sqrt (shapeCast S4000x1 _ shapeCasts_S4000_S4000x1 (ix2 p (0 : Fin 1)))) _) = _
  rw [shapeCast_a_a1_apply, rowSum_printed]
  simp only [mulf_apply, affine_apply, broadcast_apply]
  unfold nrm eps
  rfl

/-! ## The first layer's body -/

theorem pay0_eq (x0 x1 : Vec Ideal S4000x128 .f32) (x2 x3 : Vec Ideal S128x128 .f32) (x4 : Vec Ideal S1x128 .f32) :
    k0_pay1 (F := Ideal) x0 x1 x2 x3 x4 =
      maximumf (divf (affine x0 x1 x2 x3 x4) (broadcastTo S4000x128 (maximumf (sqrt (shapeCast S4000x1 (multiReduction .add [1] S4000 (mulf (affine x0 x1 x2 x3 x4) (affine x0 x1 x2 x3 x4)) 0x00000000#32 reduces_S4000x128_S4000 (.inl rfl) rfl) shapeCasts_S4000_S4000x1)) (broadcast S4000x1 (Scalar.ofBits .f32 0x2B8CBCCC#32))) broadcasts_S4000x1_S4000x128))
        (broadcast S4000x128 (Scalar.ofBits .f32 0x00000000#32)) := by
  unfold k0_pay1 affine
  rw [shapeCast_self, shapeCast_self]

/-- The first layer's stored entry: the row function with the positive part. -/
theorem pay0_apply (x0 x1 : Vec Ideal S4000x128 .f32) (x2 x3 : Vec Ideal S128x128 .f32) (x4 : Vec Ideal S1x128 .f32) (p : Fin 4000) (q : Fin 128) :
    k0_pay1 (F := Ideal) x0 x1 x2 x3 x4 (ix2 p q) = outRow true (rowOf x0 p) (rowOf x1 p) x2 x3 (fun j => x4 (ix2 (0 : Fin 1) j)) q := by
  rw [pay0_eq, maximumf_apply, normalized_apply, broadcast_apply]
  unfold outRow
  rw [if_pos rfl]
  show max _ (Ideal.ofBits .f32 0x00000000#32) = _
  rw [Ideal.ofBits_zero_f32]

/-! ## The second layer's body -/

theorem pay1_eq (x0 x1 : Vec Ideal S4000x128 .f32) (x2 x3 : Vec Ideal S128x128 .f32) (x4 : Vec Ideal S1x128 .f32) :
    k1_pay1 (F := Ideal) x0 x1 x2 x3 x4 =
      divf (affine x0 x1 x2 x3 x4) (broadcastTo S4000x128 (maximumf (sqrt (shapeCast S4000x1 (multiReduction .add [1] S4000 (mulf (affine x0 x1 x2 x3 x4) (affine x0 x1 x2 x3 x4)) 0x00000000#32 reduces_S4000x128_S4000 (.inl rfl) rfl) shapeCasts_S4000_S4000x1)) (broadcast S4000x1 (Scalar.ofBits .f32 0x2B8CBCCC#32))) broadcasts_S4000x1_S4000x128) := by
  unfold k1_pay1 affine
  rw [shapeCast_self, shapeCast_self, shapeCast_self]

/-- The second layer's stored entry: the row function without the positive part. -/
theorem pay1_apply (x0 x1 : Vec Ideal S4000x128 .f32) (x2 x3 : Vec Ideal S128x128 .f32) (x4 : Vec Ideal S1x128 .f32) (p : Fin 4000) (q : Fin 128) :
    k1_pay1 (F := Ideal) x0 x1 x2 x3 x4 (ix2 p q) = outRow false (rowOf x0 p) (rowOf x1 p) x2 x3 (fun j => x4 (ix2 (0 : Fin 1) j)) q := by
  rw [pay1_eq, normalized_apply]
  unfold outRow
  rw [if_neg (by decide)]

end Cert.KernelIdeal.Body

end
-- ==== Proof.LayerEntry.lean ====
/-
  What joins a block's stored entry to the whole array's layer entry: if the two feature rows, the weights, the bias
  and the column a block entry was computed from are the rows, weights, bias and column of the array entry, then the
  block's row function value is the layer's value there. Also the bias as a function of the column, read off the
  one-row array the kernel is handed.
-/
import proofs.«139372_j45655502356568_1_alg».proof.Proof.Gen.KernelIdeal
import proofs.«139372_j45655502356568_1_alg».proof.Proof.SageRow
import Idealize.ShloMosaic.Lib.ValueIdx

noncomputable section

namespace Cert.KernelIdeal.Blocks

open Cert.KernelIdeal Cert.KernelIdeal.Gen Idealize.ShloMosaic Idealize.ShloMosaic.ValueIdx Cert.Sage

theorem hz : (![0, 0] : Fin 2 → Nat) = fun _ => 0 := funext fun a => by fin_cases a <;> rfl

/-- The bias as a function of the column, from the one-row array the kernel is handed. -/
def biasRow (B : Vec Ideal S1x128 .f32) : Fin 128 → EReal := fun j => B (ix2 (0 : Fin 1) j)

/-- A block's entry is the whole array's layer entry, once the block's rows are known to be the array's rows. -/
theorem entry_of_rows (pos : Bool) (A X : Mat 100000 128) (Wl Wr : Mat 128 128) (b : Fin 128 → EReal)
    (a x : Fin 128 → EReal) (Wl' Wr' : Mat 128 128) (b' : Fin 128 → EReal) (q : Fin 128) (i : S100000x128.Idx)
    (ha : a = rowOf A ⟨(i 0).val, (i 0).isLt⟩) (hx : x = rowOf X ⟨(i 0).val, (i 0).isLt⟩) (hl : Wl' = Wl) (hr : Wr' = Wr) (hb : b' = b)
    (hq : q = ⟨(i 1).val, (i 1).isLt⟩) :
    outRow pos a x Wl' Wr' b' q = layer pos A X Wl Wr b i := by
  subst ha hx hl hr hb hq; rfl

end Cert.KernelIdeal.Blocks

end
-- ==== Proof.LayerRegion0.lean ====
/-
  The first layer's region: what its 25 grid points leave in the output array.

  Grid point `t` is handed rows `4000·t … 4000·t + 3999` of the aggregated features and of the node features, the
  two weight matrices and the bias row whole, and writes back rows `4000·t … 4000·t + 3999` of the output. By the
  body's entry formula the block it writes is that block of ONE array, the layer (with the positive part) of the arrays
  the region found; the 25 blocks tile the 100000 rows, so after the region the output array is that layer.
  Everything is stated at ANY contents `V` of the buffers at the region's entry.
-/
import proofs.«139372_j45655502356568_1_alg».proof.Proof.Gen.KernelIdeal.Frame
import proofs.«139372_j45655502356568_1_alg».proof.Proof.LayerBody
import proofs.«139372_j45655502356568_1_alg».proof.Proof.LayerEntry
import proofs.«139372_j45655502356568_1_alg».proof.Proof.SageRow
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Sage Cert.KernelIdeal.Body

variable (V : (c : Dev nD) → (b : Ref sig .tc) → Buf (Elt Ideal) ((c : Thread nD τ).loc b))

/-- What the region leaves in its output array: the layer (positive part: true) of the arrays it finds. -/
abbrev G0 (c : Dev nD) : S100000x128.Idx → EReal :=
  layer true (V c main_v22) (V c main_arg0) (V c main_arg2) (V c main_arg4) (biasRow (V c main_v23))

/-- The printed index maps, decided over the grid: the feature windows move with the output window down the rows,
    the weight and bias windows stay at the origin, and the output's block index is the point's number. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer of the arrays the region found. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51⟩ := idx_facts0 t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = G0 V c (((cfg0.win 5).blk t).view.emb (ix2 p q))
  refine (pay0_apply _ _ _ _ _ p q).trans ?_
  refine entry_of_rows true _ _ _ _ _ _ _ _ _ _ _ _ ?_ ?_ ?_ ?_ ?_ ?_
  · funext k
    show V c main_v22 (((cfg0.win 0).blk t).view.emb (ix2 p k)) = V c main_v22 (ix2 ⟨((((cfg0.win 5).blk t).view.emb (ix2 p q)) 0).val, _⟩ k)
    refine congrArg (V c main_v22) (funext fun a => Fin.ext ?_)
    match a with
    | ⟨0, _⟩ => show win0_0.index t (0 : Fin 2) * 4000 + 1 * p.val = win0_5.index t (0 : Fin 2) * 4000 + 1 * p.val; omega
    | ⟨1, _⟩ => show win0_0.index t (1 : Fin 2) * 128 + 1 * k.val = k.val; omega
  · funext k
    show V c main_arg0 (((cfg0.win 1).blk t).view.emb (ix2 p k)) = V c main_arg0 (ix2 ⟨((((cfg0.win 5).blk t).view.emb (ix2 p q)) 0).val, _⟩ k)
    refine congrArg (V c main_arg0) (funext fun a => Fin.ext ?_)
    match a with
    | ⟨0, _⟩ => show win0_1.index t (0 : Fin 2) * 4000 + 1 * p.val = win0_5.index t (0 : Fin 2) * 4000 + 1 * p.val; omega
    | ⟨1, _⟩ => show win0_1.index t (1 : Fin 2) * 128 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg4 (((cfg0.win 3).blk t).view.emb y) = V c main_arg4 y
    refine congrArg (V c main_arg4) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext k
    show V c main_v23 (((cfg0.win 4).blk t).view.emb (ix2 (0 : Fin 1) k)) = V c main_v23 (ix2 (0 : Fin 1) k)
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * k.val = k.val; omega
  · refine Fin.ext ?_
    show q.val = win0_5.index t (1 : Fin 2) * 128 + 1 * q.val
    omega

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v24).slice (win0_5.rect t)).set ↔ _
  rw [View.set_slice_whole, Rect.mem_set_unit]
  exact Iff.rfl

/-- Row `r` of the output lies in the block of point `r / 4000`: the 25 blocks of 4000 rows tile the 100000 rows. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 4000 < cfg0.N := by show (i 0).val / 4000 < grid0.N; rw [N_0]; omega
  obtain ⟨-, -, -, -, -, -, -, -, -, -, e50, e51⟩ := idx_facts0 ⟨(i 0).val / 4000, ht⟩
  refine ⟨⟨(i 0).val / 4000, ht⟩, flush0_5 _, ?_⟩
  rw [mem_blk0]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e50]
    show (i 0).val / 4000 * 4000 ≤ (i 0).val ∧ (i 0).val < (i 0).val / 4000 * 4000 + 4000
    omega
  | ⟨1, _⟩ =>
    show win0_5.index ⟨(i 0).val / 4000, ht⟩ (1 : Fin 2) * 128 ≤ (i 1).val ∧ (i 1).val < win0_5.index ⟨(i 0).val / 4000, ht⟩ (1 : Fin 2) * 128 + 128
    omega

/-- After the region its output array is the layer of the arrays the region found. -/
theorem arr0 (c : Dev nD) : (dat0 V c).arrAt 5 cfg0.N = G0 V c :=
  (dat0 V c).arrAt_eq_of_cover 5 (G0 V c) (fun t _ => flushed0_eq V c t) cover0

end Cert.KernelIdeal.Blocks

end
-- ==== Proof.LayerRegion1.lean ====
/-
  The second layer's region: what its 25 grid points leave in the output array.

  Grid point `t` is handed rows `4000·t … 4000·t + 3999` of the aggregated features and of the node features, the
  two weight matrices and the bias row whole, and writes back rows `4000·t … 4000·t + 3999` of the output. By the
  body's entry formula the block it writes is that block of ONE array, the layer (without the positive part) of the arrays
  the region found; the 25 blocks tile the 100000 rows, so after the region the output array is that layer.
  Everything is stated at ANY contents `V` of the buffers at the region's entry.
-/
import proofs.«139372_j45655502356568_1_alg».proof.Proof.Gen.KernelIdeal.Frame
import proofs.«139372_j45655502356568_1_alg».proof.Proof.LayerBody
import proofs.«139372_j45655502356568_1_alg».proof.Proof.LayerEntry
import proofs.«139372_j45655502356568_1_alg».proof.Proof.SageRow
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Sage Cert.KernelIdeal.Body

variable (V : (c : Dev nD) → (b : Ref sig .tc) → Buf (Elt Ideal) ((c : Thread nD τ).loc b))

/-- What the region leaves in its output array: the layer (positive part: false) of the arrays it finds. -/
abbrev G1 (c : Dev nD) : S100000x128.Idx → EReal :=
  layer false (V c main_v43) (V c main_v24) (V c main_arg5) (V c main_arg7) (biasRow (V c main_v44))

/-- The printed index maps, decided over the grid: the feature windows move with the output window down the rows,
    the weight and bias windows stay at the origin, and the output's block index is the point's number. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the arrays the region found. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51⟩ := idx_facts1 t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G1 V c (((cfg1.win 5).blk t).view.emb (ix2 p q))
  refine (pay1_apply _ _ _ _ _ p q).trans ?_
  refine entry_of_rows false _ _ _ _ _ _ _ _ _ _ _ _ ?_ ?_ ?_ ?_ ?_ ?_
  · funext k
    show V c main_v43 (((cfg1.win 0).blk t).view.emb (ix2 p k)) = V c main_v43 (ix2 ⟨((((cfg1.win 5).blk t).view.emb (ix2 p q)) 0).val, _⟩ k)
    refine congrArg (V c main_v43) (funext fun a => Fin.ext ?_)
    match a with
    | ⟨0, _⟩ => show win1_0.index t (0 : Fin 2) * 4000 + 1 * p.val = win1_5.index t (0 : Fin 2) * 4000 + 1 * p.val; omega
    | ⟨1, _⟩ => show win1_0.index t (1 : Fin 2) * 128 + 1 * k.val = k.val; omega
  · funext k
    show V c main_v24 (((cfg1.win 1).blk t).view.emb (ix2 p k)) = V c main_v24 (ix2 ⟨((((cfg1.win 5).blk t).view.emb (ix2 p q)) 0).val, _⟩ k)
    refine congrArg (V c main_v24) (funext fun a => Fin.ext ?_)
    match a with
    | ⟨0, _⟩ => show win1_1.index t (0 : Fin 2) * 4000 + 1 * p.val = win1_5.index t (0 : Fin 2) * 4000 + 1 * p.val; omega
    | ⟨1, _⟩ => show win1_1.index t (1 : Fin 2) * 128 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg7 (((cfg1.win 3).blk t).view.emb y) = V c main_arg7 y
    refine congrArg (V c main_arg7) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext k
    show V c main_v44 (((cfg1.win 4).blk t).view.emb (ix2 (0 : Fin 1) k)) = V c main_v44 (ix2 (0 : Fin 1) k)
    refine congrArg (V c main_v44) (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  · refine Fin.ext ?_
    show q.val = win1_5.index t (1 : Fin 2) * 128 + 1 * q.val
    omega

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v45).slice (win1_5.rect t)).set ↔ _
  rw [View.set_slice_whole, Rect.mem_set_unit]
  exact Iff.rfl

/-- Row `r` of the output lies in the block of point `r / 4000`: the 25 blocks of 4000 rows tile the 100000 rows. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 4000 < cfg1.N := by show (i 0).val / 4000 < grid1.N; rw [N_1]; omega
  obtain ⟨-, -, -, -, -, -, -, -, -, -, e50, e51⟩ := idx_facts1 ⟨(i 0).val / 4000, ht⟩
  refine ⟨⟨(i 0).val / 4000, ht⟩, flush1_5 _, ?_⟩
  rw [mem_blk1]
  intro a
  match a with
  | ⟨0, _⟩ =>
    show win1_5.index ⟨(i 0).val / 4000, ht⟩ (0 : Fin 2) * 4000 ≤ (i 0).val ∧ (i 0).val < win1_5.index ⟨(i 0).val / 4000, ht⟩ (0 : Fin 2) * 4000 + 4000
    rw [e50]
    show (i 0).val / 4000 * 4000 ≤ (i 0).val ∧ (i 0).val < (i 0).val / 4000 * 4000 + 4000
    omega
  | ⟨1, _⟩ =>
    show win1_5.index ⟨(i 0).val / 4000, ht⟩ (1 : Fin 2) * 128 ≤ (i 1).val ∧ (i 1).val < win1_5.index ⟨(i 0).val / 4000, ht⟩ (1 : Fin 2) * 128 + 128
    omega

/-- After the region its output array is the layer of the arrays the region found. -/
theorem arr1 (c : Dev nD) : (dat1 V c).arrAt 5 cfg1.N = G1 V c :=
  (dat1 V c).arrAt_eq_of_cover 5 (G1 V c) (fun t _ => flushed1_eq V c t) cover1

end Cert.KernelIdeal.Blocks

end
-- ==== Proof.Aggregate.lean ====
/-
  The neighbour mean shared by both programs, as one function.

  From the edge list `ei` (row 0 the sources, row 1 the destinations; a negative source index is first wrapped by
  adding the node count), every edge carries its source's feature row to its destination, the rows landing on a node
  are added up, and the sum is divided by the number of edges landing there, or by one where none does. Both programs
  compute it with the same host operations, so it is kept closed here: nothing below ever looks inside it.
-/
import proofs.«139372_j45655502356568_1_alg».proof.Proof.Gen.KernelIdeal

noncomputable section

namespace Cert.KernelIdeal.Agg

open Cert.KernelIdeal Cert.KernelIdeal.Gen Idealize.ShloMosaic

variable {F : FTy → Type} [FloatOps F]

/-- The mean over incoming edges of the sources' feature rows. -/
def aggregate (feat : (⟨S100000x128, .f32⟩ : BufTy).Contents (Elt F)) (ei : (⟨S2x1600000, .i32⟩ : BufTy).Contents (Elt F)) :
    (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 feat (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

end Cert.KernelIdeal.Agg

end
-- ==== Proof.HostRead.lean ====
/-
  What the two stretches of host operations leave in the arrays the regions read, from ANY contents `X` of the
  buffers before the stretch.

  Before the first region: the aggregated-features operand is the neighbour mean (`Agg.aggregate`) of the features and
  the edge list; the bias operand is the bias vector seen as one row; the features and the weights are untouched.
  Before the second region the same, with the first region's output in the features' place; the source and destination
  index vectors it uses were cut from the edge list by the first stretch, which is a hypothesis here and a fact of the
  run where these are applied.
-/
import proofs.«139372_j45655502356568_1_alg».proof.Proof.Gen.KernelIdeal.Launch
import proofs.«139372_j45655502356568_1_alg».proof.Proof.Aggregate
import proofs.«139372_j45655502356568_1_alg».proof.Proof.LayerEntry
import Idealize.ShloMosaic.Lib.StableHlo.Run
import Idealize.ShloMosaic.Lib.ValueLayout

set_option maxRecDepth 16384

noncomputable section

namespace Cert.KernelIdeal.HostRead

open Cert.KernelIdeal Cert.KernelIdeal.Gen Cert.KernelIdeal.Agg Cert.KernelIdeal.Blocks
open Idealize.ShloMosaic Idealize.ShloMosaic.TcCoe Idealize.ShloMosaic.ValueIdx Idealize.SL.Sem Idealize.ShloMosaic.StableHlo

variable (X : Valuation τ sig (Elt Ideal))

/-! ## The first stretch -/

set_option maxHeartbeats 4000000 in
/-- The first region's aggregated-features operand: the neighbour mean of the features and the edge list. -/
theorem ops0_agg :
    StableHlo.after hostOps0 X (Proc.devRef .tc main_v22) = aggregate (X (Proc.devRef .tc main_arg0)) (X (Proc.devRef .tc main_arg1)) := by
  simp only [hostOps0]
  after_results_simp
  rfl

set_option maxHeartbeats 4000000 in
/-- The source-index vector the first stretch cuts from the edge list (the second stretch reads it again). -/
theorem ops0_src :
    StableHlo.after hostOps0 X (Proc.devRef .tc main_v1)
      = shapeCast S1600000 (extractStridedSlice S1x1600000 ![0, 0] (X (Proc.devRef .tc main_arg1)) slices_S2x1600000_S1x1600000_0_0) shapeCasts_S1x1600000_S1600000 := by
  simp only [hostOps0]
  after_results_simp
  rfl

set_option maxHeartbeats 4000000 in
/-- The destination-index vector the first stretch cuts from the edge list. -/
theorem ops0_dst :
    StableHlo.after hostOps0 X (Proc.devRef .tc main_v3)
      = shapeCast S1600000 (extractStridedSlice S1x1600000 ![1, 0] (X (Proc.devRef .tc main_arg1)) slices_S2x1600000_S1x1600000_1_0) shapeCasts_S1x1600000_S1600000 := by
  simp only [hostOps0]
  after_results_simp
  rfl

set_option maxHeartbeats 4000000 in
/-- The first region's bias operand, column by column, is the first bias vector. -/
theorem ops0_bias :
    biasRow (StableHlo.after hostOps0 X (Proc.devRef .tc main_v23)) = fun j => X (Proc.devRef .tc main_arg3) (ix1 j) := by
  have e : StableHlo.after hostOps0 X (Proc.devRef .tc main_v23) = shapeCast S1x128 (X (Proc.devRef .tc main_arg3)) shapeCasts_S128_S1x128 := by
    simp only [hostOps0]
    after_results_simp
    rfl
  funext j
  unfold biasRow
  rw [e]
  exact shapeCast_a_1a_apply _ _ 0 j

set_option maxHeartbeats 4000000 in
/-- The first stretch writes none of @main's arguments. -/
theorem ops0_keeps :
    StableHlo.after hostOps0 X (Proc.devRef .tc main_arg0) = X (Proc.devRef .tc main_arg0)
    ∧ StableHlo.after hostOps0 X (Proc.devRef .tc main_arg1) = X (Proc.devRef .tc main_arg1)
    ∧ StableHlo.after hostOps0 X (Proc.devRef .tc main_arg2) = X (Proc.devRef .tc main_arg2)
    ∧ StableHlo.after hostOps0 X (Proc.devRef .tc main_arg4) = X (Proc.devRef .tc main_arg4)
    ∧ StableHlo.after hostOps0 X (Proc.devRef .tc main_arg5) = X (Proc.devRef .tc main_arg5)
    ∧ StableHlo.after hostOps0 X (Proc.devRef .tc main_arg6) = X (Proc.devRef .tc main_arg6)
    ∧ StableHlo.after hostOps0 X (Proc.devRef .tc main_arg7) = X (Proc.devRef .tc main_arg7) := by
  simp only [hostOps0]
  refine ⟨?_, ?_, ?_, ?_, ?_, ?_, ?_⟩ <;> after_results_simp

/-! ## The second stretch -/

set_option maxHeartbeats 4000000 in
/-- The second region's aggregated-features operand: the neighbour mean of the first region's output, over the same
    edge list, whose source and destination vectors the buffers still hold. -/
theorem ops1_agg (ei : (⟨S2x1600000, .i32⟩ : BufTy).Contents (Elt Ideal))
    (hsrc : X (Proc.devRef .tc main_v1) = shapeCast S1600000 (extractStridedSlice S1x1600000 ![0, 0] ei slices_S2x1600000_S1x1600000_0_0) shapeCasts_S1x1600000_S1600000)
    (hdst : X (Proc.devRef .tc main_v3) = shapeCast S1600000 (extractStridedSlice S1x1600000 ![1, 0] ei slices_S2x1600000_S1x1600000_1_0) shapeCasts_S1x1600000_S1600000) :
    StableHlo.after hostOps1 X (Proc.devRef .tc main_v43) = aggregate (X (Proc.devRef .tc main_v24)) ei := by
  simp only [hostOps1]
  after_results_simp
  rw [hsrc, hdst]
  rfl

set_option maxHeartbeats 4000000 in
/-- The second region's bias operand, column by column, is the second bias vector. -/
theorem ops1_bias :
    biasRow (StableHlo.after hostOps1 X (Proc.devRef .tc main_v44)) = fun j => X (Proc.devRef .tc main_arg6) (ix1 j) := by
  have e : StableHlo.after hostOps1 X (Proc.devRef .tc main_v44) = shapeCast S1x128 (X (Proc.devRef .tc main_arg6)) shapeCasts_S128_S1x128 := by
    simp only [hostOps1]
    after_results_simp
    rfl
  funext j
  unfold biasRow
  rw [e]
  exact shapeCast_a_1a_apply _ _ 0 j

set_option maxHeartbeats 4000000 in
/-- The second stretch writes neither the first region's output nor the second layer's weights. -/
theorem ops1_keeps :
    StableHlo.after hostOps1 X (Proc.devRef .tc main_v24) = X (Proc.devRef .tc main_v24)
    ∧ StableHlo.after hostOps1 X (Proc.devRef .tc main_arg5) = X (Proc.devRef .tc main_arg5)
    ∧ StableHlo.after hostOps1 X (Proc.devRef .tc main_arg7) = X (Proc.devRef .tc main_arg7) := by
  simp only [hostOps1]
  refine ⟨?_, ?_, ?_⟩ <;> after_results_simp

end Cert.KernelIdeal.HostRead

end
-- ==== Proof.TwoLayers.lean ====
/-
  The whole network as one function of its inputs: the first layer (with the positive part) of the features and their
  neighbour mean, then the second layer (without it) of the first layer's output and ITS neighbour mean over the same
  edges. Both programs are shown to end with this array.
-/
import proofs.«139372_j45655502356568_1_alg».proof.Proof.SageRow
import proofs.«139372_j45655502356568_1_alg».proof.Proof.Aggregate

noncomputable section

namespace Cert.Sage

open Idealize.ShloMosaic Cert.KernelIdeal Cert.KernelIdeal.Agg

/-- The layer does not care how its operands are named. -/
theorem layer_congr {pos : Bool} {n : Nat} {A A' X X' : Mat n 128} {Wl Wl' Wr Wr' : Mat 128 128} {b b' : Fin 128 → EReal}
    (hA : A = A') (hX : X = X') (hl : Wl = Wl') (hr : Wr = Wr') (hb : b = b') :
    layer pos A X Wl Wr b = layer pos A' X' Wl' Wr' b' := by
  subst hA hX hl hr hb; rfl

/-- The hidden features: the first layer of the features and their neighbour mean. -/
def hidden (x : Mat 100000 128) (ei : (⟨S2x1600000, .i32⟩ : BufTy).Contents (Elt Ideal)) (W1l W1r : Mat 128 128) (b1 : Fin 128 → EReal) :
    Mat 100000 128 :=
  layer true (aggregate (F := Ideal) x ei) x W1l W1r b1

/-- The network's output: the second layer of the hidden features and their neighbour mean. -/
def twoLayers (x : Mat 100000 128) (ei : (⟨S2x1600000, .i32⟩ : BufTy).Contents (Elt Ideal)) (W1l W1r W2l W2r : Mat 128 128)
    (b1 b2 : Fin 128 → EReal) : Mat 100000 128 :=
  layer false (aggregate (F := Ideal) (hidden x ei W1l W1r b1) ei) (hidden x ei W1l W1r b1) W2l W2r b2

end Cert.Sage

end
-- ==== Proof.KernelValue.lean ====
/-
  The kernel program's result as a function of its inputs.

  The run leaves the result array at the last boundary's contents. Reading back through the run: that is what the
  second region's write-backs leave, the second layer of the arrays that region found; those are the neighbour mean of
  the first region's output (computed by the host operations between the regions), that output itself, and the second
  layer's weights and bias; and the first region's output is the first layer of what IT found, the neighbour mean of the
  features, the features, and the first layer's weights and bias. Together: `Cert.Sage.twoLayers` of the inputs.
-/
import proofs.«139372_j45655502356568_1_alg».proof.Proof.KernelRun
import proofs.«139372_j45655502356568_1_alg».proof.Proof.LayerRegion0
import proofs.«139372_j45655502356568_1_alg».proof.Proof.LayerRegion1
import proofs.«139372_j45655502356568_1_alg».proof.Proof.HostRead
import proofs.«139372_j45655502356568_1_alg».proof.Proof.TwoLayers

set_option maxRecDepth 16384

noncomputable section

namespace Cert.KernelIdeal.Result

open Cert.KernelIdeal Cert.KernelIdeal.Gen Cert.KernelIdeal.Agg Cert.KernelIdeal.Blocks Cert.KernelIdeal.HostRead Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

/-- After the first region its output array holds the hidden features. -/
theorem hidden_eq (c : Dev nD) :
    W2 m ρ c (Proc.devRef .tc main_v24)
      = hidden (m ((c : Thread nD τ).loc main_arg0)) (m ((c : Thread nD τ).loc main_arg1)) (m ((c : Thread nD τ).loc main_arg2))
          (m ((c : Thread nD τ).loc main_arg4)) (fun j => m ((c : Thread nD τ).loc main_arg3) (ix1 j)) :=
  (W2_arr m ρ c 5).trans ((arr0 (V1 m ρ) c).trans (layer_congr
    (ops0_agg (W0 m ρ c)) (ops0_keeps (W0 m ρ c)).1 (ops0_keeps (W0 m ρ c)).2.2.1 (ops0_keeps (W0 m ρ c)).2.2.2.1 (ops0_bias (W0 m ρ c))))

/-- The source and destination index vectors are still in their buffers when the second stretch runs. -/
theorem src_kept (c : Dev nD) :
    W2 m ρ c (Proc.devRef .tc main_v1)
      = shapeCast S1600000 (extractStridedSlice S1x1600000 ![0, 0] (m ((c : Thread nD τ).loc main_arg1)) slices_S2x1600000_S1x1600000_0_0) shapeCasts_S1x1600000_S1600000 :=
  (W2_of_ne m ρ c main_v1 (by decide)).trans (ops0_src (W0 m ρ c))
theorem dst_kept (c : Dev nD) :
    W2 m ρ c (Proc.devRef .tc main_v3)
      = shapeCast S1600000 (extractStridedSlice S1x1600000 ![1, 0] (m ((c : Thread nD τ).loc main_arg1)) slices_S2x1600000_S1x1600000_1_0) shapeCasts_S1x1600000_S1600000 :=
  (W2_of_ne m ρ c main_v3 (by decide)).trans (ops0_dst (W0 m ρ c))

/-- The second layer's weights and bias reach the second region as launched. -/
theorem arg5_kept (c : Dev nD) : W2 m ρ c (Proc.devRef .tc main_arg5) = m ((c : Thread nD τ).loc main_arg5) :=
  (W2_of_ne m ρ c main_arg5 (by decide)).trans (ops0_keeps (W0 m ρ c)).2.2.2.2.1
theorem arg6_kept (c : Dev nD) : W2 m ρ c (Proc.devRef .tc main_arg6) = m ((c : Thread nD τ).loc main_arg6) :=
  (W2_of_ne m ρ c main_arg6 (by decide)).trans (ops0_keeps (W0 m ρ c)).2.2.2.2.2.1
theorem arg7_kept (c : Dev nD) : W2 m ρ c (Proc.devRef .tc main_arg7) = m ((c : Thread nD τ).loc main_arg7) :=
  (W2_of_ne m ρ c main_arg7 (by decide)).trans (ops0_keeps (W0 m ρ c)).2.2.2.2.2.2

/-- THE KERNEL PROGRAM'S RESULT: the two layers of the inputs. -/
theorem result_eq (c : Dev nD) :
    W4 m ρ c (Proc.devRef .tc main_v45)
      = twoLayers (m ((c : Thread nD τ).loc main_arg0)) (m ((c : Thread nD τ).loc main_arg1))
          (m ((c : Thread nD τ).loc main_arg2)) (m ((c : Thread nD τ).loc main_arg4))
          (m ((c : Thread nD τ).loc main_arg5)) (m ((c : Thread nD τ).loc main_arg7))
          (fun j => m ((c : Thread nD τ).loc main_arg3) (ix1 j)) (fun j => m ((c : Thread nD τ).loc main_arg6) (ix1 j)) :=
  (W4_arr m ρ c 5).trans ((arr1 (V3 m ρ) c).trans (layer_congr
    ((ops1_agg (W2 m ρ c) (m ((c : Thread nD τ).loc main_arg1)) (src_kept m ρ c) (dst_kept m ρ c)).trans
      (congrArg (fun h => aggregate (F := Ideal) h (m ((c : Thread nD τ).loc main_arg1))) (hidden_eq m ρ c)))
    ((ops1_keeps (W2 m ρ c)).1.trans (hidden_eq m ρ c))
    ((ops1_keeps (W2 m ρ c)).2.1.trans (arg5_kept m ρ c))
    ((ops1_keeps (W2 m ρ c)).2.2.trans (arg7_kept m ρ c))
    ((ops1_bias (W2 m ρ c)).trans (funext fun j => congrFun (arg6_kept m ρ c) (ix1 j)))))

end Cert.KernelIdeal.Result

end
-- ==== Proof.RefLayers.lean ====
/-
  The reference program's result as a function of its inputs.

  Operation by operation, the reference's affine part at a node's row and a column is the sum over the shared
  coordinate of the aggregated row against `Wl`, plus the bias, plus the sum of the node's own row against `Wr`:
  `Cert.Sage.lin` with the bias added before the node's own term, the same number. Its norm call is the square root
  of the row's sum of squares, clamped below; its quotient and (in the first layer) the maximum with zero are the row
  function's. So each layer is `Cert.Sage.layer`, and the two neighbour means are the shared aggregation.
-/
import proofs.«139372_j45655502356568_1_alg».proof.Proof.Gen.ReferenceIdeal.Read
import proofs.«139372_j45655502356568_1_alg».proof.Proof.SageRow
import proofs.«139372_j45655502356568_1_alg».proof.Proof.Aggregate
import proofs.«139372_j45655502356568_1_alg».proof.Proof.TwoLayers
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Sage

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The bias as a function of the column, from the bias vector. -/
def biasOf (b : (⟨S128, .f32⟩ : BufTy).Contents (Elt Ideal)) : Fin 128 → EReal := fun j => b (ix1 j)

/-! ## The first layer -/

theorem lidx23 (r : Fin 100000) (q k : Fin 128) : lidx_main_v23 (ix2 r q) k = ix2 r k :=
  funext fun a => Fin.ext (by match a with | ⟨0, _⟩ => rfl | ⟨1, _⟩ => rfl)
theorem ridx23 (r : Fin 100000) (q k : Fin 128) : ridx_main_v23 (ix2 r q) k = ix2 k q :=
  funext fun a => Fin.ext (by match a with | ⟨0, _⟩ => rfl | ⟨1, _⟩ => rfl)
theorem lidx27 (r : Fin 100000) (q k : Fin 128) : lidx_main_v27 (ix2 r q) k = ix2 r k :=
  funext fun a => Fin.ext (by match a with | ⟨0, _⟩ => rfl | ⟨1, _⟩ => rfl)
theorem ridx27 (r : Fin 100000) (q k : Fin 128) : ridx_main_v27 (ix2 r q) k = ix2 k q :=
  funext fun a => Fin.ext (by match a with | ⟨0, _⟩ => rfl | ⟨1, _⟩ => rfl)
theorem idx2425 (r : Fin 100000) (q : Fin 128) : idx_main_v24 (idx_main_v25 (ix2 r q)) = ix1 q :=
  funext fun a => Fin.ext (by match a with | ⟨0, _⟩ => rfl)

/-- The first layer's affine part at row `r`, column `q`. -/
theorem affine1_at (r : Fin 100000) (q : Fin 128) :
    val_main_v28 (F := Ideal) x0 x1 x2 x3 x4 (ix2 r q)
      = lin (rowOf (val_main_v22 (F := Ideal) x0 x1) r) (rowOf x0 r) x2 x4 (biasOf x3) q := by
  rw [val_main_v28_apply, val_main_v26_apply, val_main_v23_apply, val_main_v25_apply, val_main_v24_apply, val_main_v27_apply]
  refine Eq.trans ?_ (lin_bias_first _ _ _ _ _ _)
  simp only [lidx23, ridx23, lidx27, ridx27, idx2425]
  rfl

theorem idx32 (r : Fin 100000) (q : Fin 128) : idx_main_v32 (ix2 r q) = ix2 r (0 : Fin 1) :=
  funext fun a => Fin.ext (by match a with | ⟨0, _⟩ => rfl | ⟨1, _⟩ => rfl)
theorem idxc0v2 (r : Fin 100000) (u : Fin 1) : idx_main_call0_v2 (ix2 r u) = ix1 r :=
  funext fun a => Fin.ext (by match a with | ⟨0, _⟩ => rfl)
theorem idxc0v1 (r : Fin 100000) (k : Fin 128) : idx_main_call0_v1 (ix1 r) k = ix2 r k :=
  funext fun a => Fin.ext (by match a with | ⟨0, _⟩ => rfl | ⟨1, _⟩ => rfl)

/-- The first layer's clamped row norm at row `r`. -/
theorem nrm1_at (r : Fin 100000) :
    val_main_v31 (F := Ideal) x0 x1 x2 x3 x4 (ix2 r (0 : Fin 1))
      = nrm (rowOf (val_main_v22 (F := Ideal) x0 x1) r) (rowOf x0 r) x2 x4 (biasOf x3) := by
  rw [val_main_v31_apply, val_main_v29_apply, val_main_call0_v2_apply, idxc0v2, val_main_call0_v1_apply, val_main_v30_apply,
    val_main_call0_cst_apply, val_main_cst_4_apply]
  have hs : ∀ k : Fin 128, val_main_call0_v0 (F := Ideal) x0 x1 x2 x3 x4 (idx_main_call0_v1 (ix1 r) k)
      = lin (rowOf (val_main_v22 (F := Ideal) x0 x1) r) (rowOf x0 r) x2 x4 (biasOf x3) k
        * lin (rowOf (val_main_v22 (F := Ideal) x0 x1) r) (rowOf x0 r) x2 x4 (biasOf x3) k := fun k => by
    rw [idxc0v1, val_main_call0_v0_apply, affine1_at]; rfl
  rw [Finset.sum_congr rfl (fun k _ => hs k)]
  unfold nrm eps
  rw [Ideal.maximumf_def]
  rw [Ideal.hostUnary_sqrt_def]
  rw [Ideal.ofBits_def, Ideal.ofBits_def]
  rw [Ideal.ofBits_zero_f32]
  rw [zero_add]

/-- The first layer with its positive part, as the reference computes it, is the layer of the aggregated and the own features. -/
theorem layer1_eq :
    val_main_v34 (F := Ideal) x0 x1 x2 x3 x4 = layer true (val_main_v22 (F := Ideal) x0 x1) x0 x2 x4 (biasOf x3) := by
  funext i
  obtain ⟨r, q, rfl⟩ : ∃ (r : Fin 100000) (q : Fin 128), i = ix2 r q := ⟨i 0, i 1, eq_ix2 i⟩
  rw [layer_apply, val_main_v34_apply, val_main_v33_apply, val_main_v32_apply, idx32, nrm1_at, affine1_at, val_main_call1_v0_apply, val_main_call1_cst_apply]
  unfold outRow
  rw [if_pos rfl, Ideal.maximumf_def, Ideal.hostDivf_def, Ideal.ofBits_def, Ideal.ofBits_zero_f32]

/-! ## The second layer -/

theorem lidx54 (r : Fin 100000) (q k : Fin 128) : lidx_main_v54 (ix2 r q) k = ix2 r k :=
  funext fun a => Fin.ext (by match a with | ⟨0, _⟩ => rfl | ⟨1, _⟩ => rfl)
theorem ridx54 (r : Fin 100000) (q k : Fin 128) : ridx_main_v54 (ix2 r q) k = ix2 k q :=
  funext fun a => Fin.ext (by match a with | ⟨0, _⟩ => rfl | ⟨1, _⟩ => rfl)
theorem lidx58 (r : Fin 100000) (q k : Fin 128) : lidx_main_v58 (ix2 r q) k = ix2 r k :=
  funext fun a => Fin.ext (by match a with | ⟨0, _⟩ => rfl | ⟨1, _⟩ => rfl)
theorem ridx58 (r : Fin 100000) (q k : Fin 128) : ridx_main_v58 (ix2 r q) k = ix2 k q :=
  funext fun a => Fin.ext (by match a with | ⟨0, _⟩ => rfl | ⟨1, _⟩ => rfl)
theorem idx5556 (r : Fin 100000) (q : Fin 128) : idx_main_v55 (idx_main_v56 (ix2 r q)) = ix1 q :=
  funext fun a => Fin.ext (by match a with | ⟨0, _⟩ => rfl)

/-- The second layer's affine part at row `r`, column `q`. -/
theorem affine2_at (r : Fin 100000) (q : Fin 128) :
    val_main_v59 (F := Ideal) x0 x1 x2 x3 x4 x5 x6 x7 (ix2 r q)
      = lin (rowOf (val_main_v53 (F := Ideal) x0 x1 x2 x3 x4) r) (rowOf (val_main_v34 (F := Ideal) x0 x1 x2 x3 x4) r) x5 x7 (biasOf x6) q := by
  rw [val_main_v59_apply, val_main_v57_apply, val_main_v54_apply, val_main_v56_apply, val_main_v55_apply, val_main_v58_apply]
  refine Eq.trans ?_ (lin_bias_first _ _ _ _ _ _)
  simp only [lidx54, ridx54, lidx58, ridx58, idx5556]
  rfl

theorem idx63 (r : Fin 100000) (q : Fin 128) : idx_main_v63 (ix2 r q) = ix2 r (0 : Fin 1) :=
  funext fun a => Fin.ext (by match a with | ⟨0, _⟩ => rfl | ⟨1, _⟩ => rfl)
theorem idxc2v2 (r : Fin 100000) (u : Fin 1) : idx_main_call2_v2 (ix2 r u) = ix1 r :=
  funext fun a => Fin.ext (by match a with | ⟨0, _⟩ => rfl)
theorem idxc2v1 (r : Fin 100000) (k : Fin 128) : idx_main_call2_v1 (ix1 r) k = ix2 r k :=
  funext fun a => Fin.ext (by match a with | ⟨0, _⟩ => rfl | ⟨1, _⟩ => rfl)

/-- The second layer's clamped row norm at row `r`. -/
theorem nrm2_at (r : Fin 100000) :
    val_main_v62 (F := Ideal) x0 x1 x2 x3 x4 x5 x6 x7 (ix2 r (0 : Fin 1))
      = nrm (rowOf (val_main_v53 (F := Ideal) x0 x1 x2 x3 x4) r) (rowOf (val_main_v34 (F := Ideal) x0 x1 x2 x3 x4) r) x5 x7 (biasOf x6) := by
  rw [val_main_v62_apply, val_main_v60_apply, val_main_call2_v2_apply, idxc2v2, val_main_call2_v1_apply, val_main_v61_apply,
    val_main_call2_cst_apply, val_main_cst_11_apply]
  have hs : ∀ k : Fin 128, val_main_call2_v0 (F := Ideal) x0 x1 x2 x3 x4 x5 x6 x7 (idx_main_call2_v1 (ix1 r) k)
      = lin (rowOf (val_main_v53 (F := Ideal) x0 x1 x2 x3 x4) r) (rowOf (val_main_v34 (F := Ideal) x0 x1 x2 x3 x4) r) x5 x7 (biasOf x6) k
        * lin (rowOf (val_main_v53 (F := Ideal) x0 x1 x2 x3 x4) r) (rowOf (val_main_v34 (F := Ideal) x0 x1 x2 x3 x4) r) x5 x7 (biasOf x6) k := fun k => by
    rw [idxc2v1, val_main_call2_v0_apply, affine2_at]; rfl
  rw [Finset.sum_congr rfl (fun k _ => hs k)]
  unfold nrm eps
  rw [Ideal.maximumf_def]
  rw [Ideal.hostUnary_sqrt_def]
  rw [Ideal.ofBits_def, Ideal.ofBits_def]
  rw [Ideal.ofBits_zero_f32]
  rw [zero_add]

/-- The second layer, as the reference computes it, is the layer of the hidden features and their neighbour mean. -/
theorem layer2_eq :
    val_main_v64 (F := Ideal) x0 x1 x2 x3 x4 x5 x6 x7
      = layer false (val_main_v53 (F := Ideal) x0 x1 x2 x3 x4) (val_main_v34 (F := Ideal) x0 x1 x2 x3 x4) x5 x7 (biasOf x6) := by
  funext i
  obtain ⟨r, q, rfl⟩ : ∃ (r : Fin 100000) (q : Fin 128), i = ix2 r q := ⟨i 0, i 1, eq_ix2 i⟩
  rw [layer_apply, val_main_v64_apply, val_main_v63_apply, idx63, nrm2_at, affine2_at]
  unfold outRow
  rw [if_neg (by decide), Ideal.hostDivf_def]

/-! ## The neighbour means, and the whole reference -/

/-- The reference's first neighbour mean is the shared function of the features and the edge list. -/
theorem agg1_eq : val_main_v22 (F := Ideal) x0 x1 = Cert.KernelIdeal.Agg.aggregate (F := Ideal) x0 x1 := rfl

/-- Its second neighbour mean is the same function of the hidden features and the edge list. -/
theorem agg2_eq :
    val_main_v53 (F := Ideal) x0 x1 x2 x3 x4
      = Cert.KernelIdeal.Agg.aggregate (F := Ideal) (val_main_v34 (F := Ideal) x0 x1 x2 x3 x4) x1 := rfl

/-- THE REFERENCE'S RESULT: the two layers of the inputs. -/
theorem result_eq :
    val_main_v64 (F := Ideal) x0 x1 x2 x3 x4 x5 x6 x7 = twoLayers x0 x1 x2 x4 x5 x7 (biasOf x3) (biasOf x6) := by
  rw [layer2_eq, agg2_eq, layer1_eq, agg1_eq]
  rfl

end Cert.ReferenceIdeal.RefValue

end
-- ==== Proof.lean ====
/-
  Two-layer GraphSAGE (mean aggregation, L2-normalised outputs) on 100000 nodes and 1600000 edges: a Pallas kernel per
  layer for the dense part, against a plain jnp reference.

  Both programs compute, over the extended reals, ONE function of the inputs (`Cert.Sage.twoLayers`):
  the hidden features are the first layer — each node's row is
      lin = (mean of its in-neighbours' feature rows) · W1l + (its own row) · W1r + b1,
  divided by max(‖lin‖, eps), then its positive part — and the output is the same layer without the positive part,
  applied to the hidden features and THEIR neighbour means with W2l, W2r, b2.

  The kernel program leaves the neighbour mean to host operations (the same ones the reference runs) and does the rest
  of each layer in a grid of 25 blocks of 4000 rows; rounding its operands to a narrower format before the products is
  the identity here, a product accumulated from zero is the plain sum, and each block it writes is that block of the
  layer of the whole arrays, so after each region the output array IS the layer (Proof/LayerBody, LayerRegion0/1,
  HostRead, KernelValue). The reference adds the bias before the node's own term where the kernel adds it after:
  the same number, since addition of extended reals is commutative and associative (Proof/RefLayers). No cancellation
  or distributivity is used, so the inputs' finiteness is never needed.

  The two word-level and idealized kernel programs run without fault and keep their arguments by the generated frames;
  the reference's frame is its run with the result dropped; the idealization rewrote nothing.
-/
import proofs.«139372_j45655502356568_1_alg».proof.Defs
import proofs.«139372_j45655502356568_1_alg».proof.Proof.Gen.Kernel
import proofs.«139372_j45655502356568_1_alg».proof.Proof.Gen.Kernel.Skeleton
import proofs.«139372_j45655502356568_1_alg».proof.Proof.Gen.Kernel.Launch
import proofs.«139372_j45655502356568_1_alg».proof.Proof.Gen.Kernel.Points
import proofs.«139372_j45655502356568_1_alg».proof.Proof.Gen.Kernel.Frame
import proofs.«139372_j45655502356568_1_alg».proof.Proof.Gen.KernelIdeal
import proofs.«139372_j45655502356568_1_alg».proof.Proof.Gen.KernelIdeal.Skeleton
import proofs.«139372_j45655502356568_1_alg».proof.Proof.Gen.KernelIdeal.Launch
import proofs.«139372_j45655502356568_1_alg».proof.Proof.Gen.KernelIdeal.Points
import proofs.«139372_j45655502356568_1_alg».proof.Proof.Gen.KernelIdeal.Frame
import proofs.«139372_j45655502356568_1_alg».proof.Proof.Gen.ReferenceIdeal
import proofs.«139372_j45655502356568_1_alg».proof.Proof.Gen.Pre_finite_inputs
import proofs.«139372_j45655502356568_1_alg».proof.Proof.Gen.ReferenceIdeal.Run
import proofs.«139372_j45655502356568_1_alg».proof.Proof.Gen.ReferenceIdeal.Read
import proofs.«139372_j45655502356568_1_alg».proof.Proof.KernelValue
import proofs.«139372_j45655502356568_1_alg».proof.Proof.RefLayers
import Idealize.ShloMosaic.Adequacy
import Idealize.ShloMosaic.Init

noncomputable section

namespace Cert.Proof

open Idealize.ShloMosaic Idealize.ShloMosaic.ValueIdx Idealize.SL.Sem Cert.Sage

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the two layers of the inputs they agree on. -/
theorem algebraic : Cert.algebraic_KernelIdeal_ReferenceIdeal := by
  intro m ρ m' ρ' _ hagree
  refine ⟨fun c => twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (fun j => m ((c.tc : Thread Cert.KernelIdeal.nD Cert.KernelIdeal.τ).loc Cert.KernelIdeal.main_arg3) (ix1 j))
      (fun j => m ((c.tc : Thread Cert.KernelIdeal.nD Cert.KernelIdeal.τ).loc Cert.KernelIdeal.main_arg6) (ix1 j)), ?_, ?_⟩
  · exact (θ_run Cert.KernelIdeal.defs _ _).mono
      (fun r h c => ⟨(h c).1.trans (Cert.KernelIdeal.Result.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v64_eq, Cert.ReferenceIdeal.RefValue.result_eq, h0, h1, h2, h3, h4, h5, h6, h7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
